-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S512x512 : Shape := ⟨2, ![512, 512]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S262144x512 .f32) (main_arg1 : FVec F S512x512 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S262144x512 : Shape := ⟨2, ![262144, 512]⟩
abbrev S512x512 : Shape := ⟨2, ![512, 512]⟩
abbrev S4096x512 : Shape := ⟨2, ![4096, 512]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S262144x512, .f32⟩
  | .hbm, ⟨1, _⟩ => ⟨S512x512, .f32⟩
  | .hbm, ⟨2, _⟩ => ⟨S512x512, .bf16⟩
  | .hbm, ⟨3, _⟩ => ⟨S262144x512, .f32⟩
  | .local _ .vmem, ⟨0, _⟩ => ⟨S4096x512, .f32⟩
  | .local _ .vmem, ⟨1, _⟩ => ⟨S4096x512, .f32⟩
  | .local _ .vmem, ⟨2, _⟩ => ⟨S512x512, .bf16⟩
  | .local _ .vmem, ⟨3, _⟩ => ⟨S4096x512, .f32⟩
  | .local _ .vmem, ⟨4, _⟩ => ⟨S4096x512, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c2048_i32 : BitVec 32 := 2048#32
  let v2 : BitVec 32 := Scalar.muli c0_i32 c2048_i32
  v2
def k0_off1 (c0_i32 : BitVec 32) : Fin 2 → Nat :=
  let c2048_i32 : BitVec 32 := 2048#32
  let v2 : BitVec 32 := Scalar.muli c0_i32 c2048_i32
  let v3 : BitVec 32 := v2
  let v4 : Index := Scalar.indexCast v3
  let c0_1 : Index := 0#32
  ![v4.toNat, 0]
def k0_mult2 : BitVec 32 :=
  let c1_i32 : BitVec 32 := 1#32
  let c2048_i32_3 : BitVec 32 := 2048#32
  let v10 : BitVec 32 := Scalar.muli c1_i32 c2048_i32_3
  v10
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S2048x512 : 0 < S2048x512.numel
  dot_S2048x512_S512x512_S2048x512_1_0_0_1_n_n_wf : DotDims.WF S2048x512 S512x512 S2048x512 [1] [0] [0] [1] [] []
  hrank0 : 0 < grid0.rank
  k0_mult1_dvd : 2048 ∣ k0_mult1.toNat
  k0_off1_inb : ∀ (r : Fin 2), ∀ a, (k0_off1 (BitVec.ofNat 32 r.val)) a + S2048x512.size a ≤ S4096x512.size a
  k0_mult2_dvd : 2048 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S262144x512.size a
  hwx0_2 : ∀ i : grid0.Coords, EltTy.bits .f32 = 32 ∨ (Rect.block (s := S262144x512) S4096x512.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x512 : Shape := ⟨2, ![262144, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S512x512, .f32⟩
  | .hbm, ⟨2, _⟩ => ⟨S262144x512, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S262144x512_S512x512_S262144x512_1_0_0_1_n_n_wf : DotDims.WF S262144x512 S512x512 S262144x512 [1] [0] [0] [1] [] []

variable [Facts₀]

def dot_S262144x512_S512x512_S262144x512_1_0_0_1_n_n : DotDims S262144x512 S512x512 S262144x512 where
  lhsContracting := [1]
  rhsContracting := [0]
  lhsNonContracting := [0]
  rhsNonContracting := [1]
  lhsBatch := []
  rhsBatch := []
  wf := dot_S262144x512_S512x512_S262144x512_1_0_0_1_n_n_wf

class Facts : Prop extends Facts₀ where

variable [Facts]
-- ==== Proof.MatProduct.lean ====
/-
  The product of a matrix of rows with a matrix of columns, over the extended reals.

  `matProd X Q` is the array whose entry (r, c) is the sum over k of X(r, k) · Q(k, c): the dot product of row r of
  X with column c of Q. Two facts about it are all the certificate needs:

  * entry by entry it is that sum (`matProd_apply`), and
  * ROWS ARE INDEPENDENT: row r of the product depends on X only through row r of X. So if a shorter matrix Xb holds
    the rows o, o+1, … of X, then row r of `matProd Xb Q` is row o + r of `matProd X Q` (`matProd_rows`): a product
    computed on a band of rows is that band of the whole product. No law of the extended reals beyond equality of
    the summands is used; in particular nothing here needs the entries to be finite.
-/
import Idealize.ShloMosaic.PureOps.Ideal
import Idealize.ShloMosaic.Lib.ValueIdx

noncomputable section

open Idealize.ShloMosaic Idealize.ShloMosaic.ValueIdx
open scoped BigOperators

namespace Cert.MatProduct

variable {M B K N : Nat}

/-- Entry (r, c) of X · Q: the sum over k of X(r, k) · Q(k, c). -/
def matProd (X : (⟨2, ![M, K]⟩ : Shape).Idx → EReal) (Q : (⟨2, ![K, N]⟩ : Shape).Idx → EReal) :
    (⟨2, ![M, N]⟩ : Shape).Idx → EReal :=
  fun i => ∑ k : Fin K, X (ix2 (⟨(i 0).val, idx2_lt0 i⟩ : Fin M) k) * Q (ix2 k (⟨(i 1).val, idx2_lt1 i⟩ : Fin N))

/-- At the index with coordinates (r, c) it is the dot product of row r with column c. -/
theorem matProd_apply (X : (⟨2, ![M, K]⟩ : Shape).Idx → EReal) (Q : (⟨2, ![K, N]⟩ : Shape).Idx → EReal)
    (r : Fin M) (c : Fin N) : matProd X Q (ix2 r c) = ∑ k : Fin K, X (ix2 r k) * Q (ix2 k c) := rfl

/-- A band of rows of the product is the product of the band: if Xb's row r is X's row `o + r`, then entry (r, c) of
    Xb · Q is entry (o + r, c) of X · Q. -/
theorem matProd_rows (X : (⟨2, ![M, K]⟩ : Shape).Idx → EReal) (Xb : (⟨2, ![B, K]⟩ : Shape).Idx → EReal)
    (Q : (⟨2, ![K, N]⟩ : Shape).Idx → EReal) (r : Fin B) (r' : Fin M) (c : Fin N)
    (h : ∀ k : Fin K, Xb (ix2 r k) = X (ix2 r' k)) :
    matProd Xb Q (ix2 r c) = matProd X Q (ix2 r' c) := by
  rw [matProd_apply, matProd_apply]
  exact Finset.sum_congr rfl fun k _ => by rw [h k]

end Cert.MatProduct

end
-- ==== Proof.BodyArithmetic.lean ====
/-
  The kernel body's arithmetic, index by index.

  At each grid point the body holds a 4096-row band of X and the whole of Q (already converted to bf16 on the host,
  which changes nothing over the extended reals). It splits the band into an upper and a lower half of 2048 rows and,
  for each half, converts the half to bf16 (again the identity here), multiplies it by Q on the matrix unit into a zero
  accumulator, and stores the 2048 × 512 result over the same half of the output band.

  A matrix product into a zero accumulator is, entry by entry, just the sum of products over the contracted axis: entry
  (p, q) is the sum over k of (left operand)(p, k) · (right operand)(k, q). So each half's stored value is the product of
  that half of the band with Q (`upper_apply`, `lower_apply`: the two halves differ only in which rows they loaded).
-/
import proofs.«410156_j43671227466270_3_alg».proof.Proof.Gen.KernelIdeal.Skeleton
import proofs.«410156_j43671227466270_3_alg».proof.Proof.MatProduct
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Body

open Cert.KernelIdeal Cert.KernelIdeal.Gen Cert.MatProduct

/-! ## Which operand entries the matrix unit pairs

The product contracts the left operand's column axis with the right operand's row axis: at output entry `i` and
contraction index `q` it reads the left operand at (row of `i`, `q`) and the right operand at (`q`, column of `i`). -/

theorem left_row (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem left_col (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem right_row (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem right_col (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- A matrix product into the zero accumulator, at entry (p, q): the dot product of the left operand's row p with the
    right operand's column q. (Adding the accumulator's 0 changes nothing.) -/
theorem matmul_into_zero_apply (a : FVec Ideal S2048x512 .bf16) (b : FVec Ideal S512x512 .bf16) (p : Fin 2048) (q : Fin 512) :
    matmul dot_S2048x512_S512x512_S2048x512_1_0_0_1_n_n none a b (constant (F := Ideal) S2048x512 .f32 0x00000000#32) (ix2 p q)
      = ∑ k : Fin 512, a (ix2 p k) * b (ix2 k q) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p q) ((contrEquiv1 dot_S2048x512_S512x512_S2048x512_1_0_0_1_n_n 512 rfl rfl).symm k) = ix2 p k := funext fun a => Fin.ext (by
    match a with
    | ⟨0, _⟩ => exact left_row _ _
    | ⟨1, _⟩ => exact (left_col _ _).trans hk)
  have er : dot_S2048x512_S512x512_S2048x512_1_0_0_1_n_n.rhsIdx (ix2 p q) ((contrEquiv1 dot_S2048x512_S512x512_S2048x512_1_0_0_1_n_n 512 rfl rfl).symm k) = ix2 k q := funext fun a => Fin.ext (by
    match a with
    | ⟨0, _⟩ => exact (right_row _ _).trans hk
    | ⟨1, _⟩ => exact right_col _ _)
  rw [el, er]

/-- The value stored over the upper half: entry (p, q) is row p of the loaded half times column q of Q. The two format
    conversions and the same-shape cast of Q are the identity on extended reals. -/
theorem upper_apply (qv : Vec Ideal S512x512 .bf16) (xv : Vec Ideal S2048x512 .f32) (p : Fin 2048) (q : Fin 512) :
    k0_pay2 (F := Ideal) qv xv (ix2 p q) = ∑ k : Fin 512, xv (ix2 p k) * qv (ix2 k q) := by
  unfold k0_pay2 k0_pay1
  refine (matmul_into_zero_apply _ _ p q).trans (Finset.sum_congr rfl fun k _ => ?_)
  rw [shapeCast_self]
  rfl

/-- The value stored over the lower half: the same function of the rows it loaded. -/
theorem lower_apply (qv : Vec Ideal S512x512 .bf16) (xv : Vec Ideal S2048x512 .f32) (p : Fin 2048) (q : Fin 512) :
    k0_pay3 (F := Ideal) qv xv (ix2 p q) = ∑ k : Fin 512, xv (ix2 p k) * qv (ix2 k q) := by
  unfold k0_pay3 k0_pay1
  refine (matmul_into_zero_apply _ _ p q).trans (Finset.sum_congr rfl fun k _ => ?_)
  rw [shapeCast_self]
  rfl

end Cert.KernelIdeal.Body

end
-- ==== Proof.BandProduct.lean ====
/-
  What one grid point leaves in its output band.

  The body's two stores tile the 4096 × 512 output band: rows 0‥2047 and rows 2048‥4095. Each store's value is the
  product of the matching 2048 rows of the X band with Q (BodyArithmetic). Because a row of a matrix product depends
  only on the same row of the left factor, each half of the band therefore holds the matching half of the product of
  the WHOLE band with Q, and the two halves together are exactly `matProd (X band) Q`, entry by entry: the band's
  contents are one function of the band index, whichever store wrote the entry.
-/
import proofs.«410156_j43671227466270_3_alg».proof.Proof.Gen.KernelIdeal.Frame
import proofs.«410156_j43671227466270_3_alg».proof.Proof.BodyArithmetic
import proofs.«410156_j43671227466270_3_alg».proof.Proof.MatProduct
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx Idealize.ShloMosaic.Tactic
open scoped BigOperators

namespace Cert.KernelIdeal.Band

open Cert.KernelIdeal Cert.KernelIdeal.Gen Cert.KernelIdeal.Body Cert.MatProduct

theorem zero_offsets : (![0, 0] : Fin 2 → Nat) = fun _ => 0 := funext fun a => by fin_cases a <;> rfl

/-- Local entry (r, k) of the 2048-row half that starts at row `o` of the band is the band's entry (o + r, k). -/
theorem half_index (o : Nat) (inb : ∀ a, (![o, 0] : Fin 2 → Nat) a + (![2048, 512] : Fin 2 → Nat) a ≤ S4096x512.size a)
    (r : Fin 2048) (k : Fin 512) (hr : o + r.val < 4096) :
    (Rect.unit (s := S4096x512) ![o, 0] ![2048, 512] inb).idx (ix2 r k) = ix2 (⟨o + r.val, hr⟩ : Fin 4096) k := by
  funext a; apply Fin.ext
  match a with
  | ⟨0, _⟩ => show o + 1 * r.val = o + r.val; omega
  | ⟨1, _⟩ => show 0 + 1 * k.val = k.val; omega

/-- A half's stored value agrees with the product of the whole band: if entry (p, q) of the value stored over the half
    starting at row `o` is the dot product of the band's row o + p with Q's column q, then at every local index the
    value is `matProd band Q` at the band index the store writes. -/
theorem half_agrees (band : Vec Ideal S4096x512 .f32) (qm : Vec Ideal S512x512 .bf16) (o : Nat) (ho : o + 2048 ≤ 4096)
    (inb : ∀ a, (![o, 0] : Fin 2 → Nat) a + (![2048, 512] : Fin 2 → Nat) a ≤ S4096x512.size a)
    (stored : (Rect.unit (s := S4096x512) ![o, 0] ![2048, 512] inb).shape.Idx → EReal)
    (hstored : ∀ (p : Fin 2048) (q : Fin 512), stored (ix2 p q)
      = ∑ k : Fin 512, band ((Rect.unit (s := S4096x512) ![o, 0] ![2048, 512] inb).idx (ix2 p k)) * qm (ix2 k q))
    (x : (Rect.unit (s := S4096x512) ![o, 0] ![2048, 512] inb).shape.Idx) :
    stored x = matProd band qm ((Rect.unit (s := S4096x512) ![o, 0] ![2048, 512] inb).emb x) := by
  obtain ⟨p, q, rfl⟩ : ∃ (p : Fin 2048) (q : Fin 512), x = ix2 p q := ⟨x 0, x 1, eq_ix2 x⟩
  have hp : o + p.val < 4096 := by have := p.isLt; omega
  refine (hstored p q).trans (Eq.trans ?_ (congrArg (matProd band qm) (half_index o inb p q hp).symm))
  rw [matProd_apply]
  exact Finset.sum_congr rfl fun k _ => by rw [half_index o inb p k hp]

/-- A load of the 2048 rows that start at row `o` of the band reads, at local entry (p, k), the band's contents at the
    index the rectangle places (p, k) at. -/
theorem loaded_rows (a1 : Memref sig .tc .vmem S4096x512 .f32) (h1 : a1.IsWhole) (band : Vec Ideal S4096x512 .f32) (o : Nat)
    (inb : ∀ a, (![o, 0] : Fin 2 → Nat) a + (![2048, 512] : Fin 2 → Nat) a ≤ S4096x512.size a) (p : Fin 2048) (k : Fin 512) :
    View.readAt (Elt Ideal) a1.view (Rect.unit (s := S4096x512) ![o, 0] ![2048, 512] inb).toLoadRect (h1.unread band) (ix2 p k)
      = band ((Rect.unit (s := S4096x512) ![o, 0] ![2048, 512] inb).idx (ix2 p k)) := by
  rw [View.readAt_eq_ld, h1.read_unread]

/-- The load of the whole of Q's buffer reads Q. -/
theorem loaded_Q (a2 : Memref sig .tc .vmem S512x512 .bf16) (h2 : a2.IsWhole) (qm : Vec Ideal S512x512 .bf16)
    (inb : ∀ a, (![0, 0] : Fin 2 → Nat) a + S512x512.size a ≤ S512x512.size a) (k q : Fin 512) :
    View.readAt (Elt Ideal) a2.view (Rect.unit (s := S512x512) ![0, 0] S512x512.size inb).toLoadRect (h2.unread qm) (ix2 k q) = qm (ix2 k q) := by
  rw [View.readAt_eq_ld, h2.read_unread, View.ld_unit_zero (S := S512x512) zero_offsets]

/-- THE BAND after the body: the product of the X band the point loaded with Q, whatever staging buffers the
    pipeline passed. -/
theorem band_eq (c : Dev nD) (i : grid0.Coords) (a1 : Memref sig .tc .vmem S4096x512 .f32) (h1 : a1.IsWhole)
    (a2 : Memref sig .tc .vmem S512x512 .bf16) (h2 : a2.IsWhole) (a3 : Memref sig .tc .vmem S4096x512 .f32) (h3 : a3.IsWhole)
    (x0 : Vec Ideal S4096x512 .f32) (x1 : Vec Ideal S512x512 .bf16) :
    out0_A_2 (F := Ideal) c i a1 h1 a2 h2 a3 h3 x0 x1 = matProd x0 x1 := by
  unfold out0_A_2
  rw [View.read_writes_eq_canon _ _ _ (cover0_A_2 c i a1 h1 a2 h2 a3 h3 x0 x1)]
  funext y
  refine View.canon_apply_of_pieces (matProd x0 x1) _ ?_ y (cover0_A_2 c i a1 h1 a2 h2 a3 h3 x0 x1 y)
  unfold kernelRun0_A
  dsimp only
  sl_unfold_words
  intro p hp
  simp only [List.mem_cons, List.not_mem_nil, or_false] at hp
  rcases hp with rfl | rfl
  · refine half_agrees x0 x1 2048 (by decide) (by decide) _ (fun p q => ?_)
    refine (lower_apply _ _ p q).trans (Finset.sum_congr rfl fun k _ => ?_)
    exact congrArg₂ (· * ·) (loaded_rows a1 h1 x0 2048 (by decide) p k) (loaded_Q a2 h2 x1 (by decide) k q)
  · refine half_agrees x0 x1 0 (by decide) (by decide) _ (fun p q => ?_)
    refine (upper_apply _ _ p q).trans (Finset.sum_congr rfl fun k _ => ?_)
    exact congrArg₂ (· * ·) (loaded_rows a1 h1 x0 0 (by decide) p k) (loaded_Q a2 h2 x1 (by decide) k q)

end Cert.KernelIdeal.Band

end
-- ==== Proof.ArrayProduct.lean ====
/-
  From bands to the whole array.

  The grid has 64 points; point t loads rows 4096·t ‥ 4096·t + 4095 of X (its band) and the whole of the converted Q,
  and writes back the band it computed to the same rows of the result. The converted Q is Q itself: the host's change
  of format before the call is the identity on extended reals.

  By BandProduct the band point t leaves is `matProd (band t of X) Q`. Rows of a product are independent, so this is
  band t of the whole product `matProd X Q` (`flushed_eq`). Every row r of the result lies in exactly the band of point
  r / 4096, so the 64 bands cover the result array (`covered`), and the array after the run is `matProd X Q`.
-/
import proofs.«410156_j43671227466270_3_alg».proof.Proof.Gen.KernelIdeal.Value
import proofs.«410156_j43671227466270_3_alg».proof.Proof.BandProduct
import proofs.«410156_j43671227466270_3_alg».proof.Proof.MatProduct
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)
open scoped BigOperators

namespace Cert.KernelIdeal.Whole

open Cert.KernelIdeal Cert.KernelIdeal.Gen Cert.KernelIdeal.Band Cert.MatProduct

variable (m : (ℓ : Loc nD τ sig) → Buf (Elt Ideal) ℓ) (ρ : Dev nD → PrngReg)

/-- X as the region finds it, -/
abbrev xarr (c : Dev nD) : Vec Ideal S262144x512 .f32 := V m c main_arg0
/-- the converted Q as the region finds it, -/
abbrev qarr (c : Dev nD) : Vec Ideal S512x512 .bf16 := V m c main_v0
/-- the band of X point `t` loads, -/
abbrev xband (c : Dev nD) (t : Fin cfg0.N) : Vec Ideal S4096x512 .f32 := iblk m c 0 t
/-- and the block of the converted Q it loads. -/
abbrev qblock (c : Dev nD) (t : Fin cfg0.N) : Vec Ideal S512x512 .bf16 := iblk m c 1 t

/-- The three index maps over the 64 points: X's and the result's band index is the point's number, their column
    block index is 0; Q's block is always (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, k) of the band point `t` loads is entry (4096·t + r, k) of X. -/
theorem xband_apply (c : Dev nD) (t : Fin cfg0.N) (r : Fin 4096) (k : Fin 512) (hr : 4096 * t.val + r.val < 262144) :
    xband m c t (ix2 r k) = xarr m c (ix2 (⟨4096 * t.val + r.val, hr⟩ : Fin 262144) k) := by
  obtain ⟨e0, e1, -⟩ := index_facts t
  have h : ((cfg0.win 0).blk t).view.emb (ix2 r k) = ix2 (⟨4096 * t.val + r.val, hr⟩ : Fin 262144) k :=
    funext fun a => Fin.ext (by
      match a with
      | ⟨0, _⟩ => show win0_0.index t (0 : Fin 2) * 4096 + 1 * r.val = 4096 * t.val + r.val; omega
      | ⟨1, _⟩ => show win0_0.index t (1 : Fin 2) * 512 + 1 * k.val = k.val; omega)
  show V m c main_arg0 (((cfg0.win 0).blk t).view.emb (ix2 r k)) = V m c main_arg0 _
  rw [h]

/-- The block of Q every point loads is the whole of Q. -/
theorem qblock_eq (c : Dev nD) (t : Fin cfg0.N) : qblock m c t = qarr m c := by
  obtain ⟨-, -, e2, e3, -⟩ := index_facts t
  funext y
  have h : ((cfg0.win 1).blk t).view.emb y = y :=
    funext fun a => Fin.ext (by
      match a with
      | ⟨0, _⟩ => show win0_1.index t (0 : Fin 2) * 512 + 1 * (y 0).val = (y 0).val; omega
      | ⟨1, _⟩ => show win0_1.index t (1 : Fin 2) * 512 + 1 * (y 1).val = (y 1).val; omega)
  show V m c main_v0 (((cfg0.win 1).blk t).view.emb y) = V m c main_v0 y
  rw [h]

/-- WHAT POINT `t` WRITES BACK is band `t` of the product of X with the converted Q. -/
theorem flushed_eq (c : Dev nD) (t : Fin cfg0.N) :
    (dats m 0 c).flushed 2 t = ((cfg0.win 2).blk t).view.read (Elt Ideal) (matProd (xarr m c) (qarr m c)) := by
  refine (Value.flushed2_A m c t).trans ?_
  refine (congrArg ((cfg0.win 2).cut (grid0.coords t))
    (band_eq c (grid0.coords t) (ms0_0 t) (hs0_0 t) (ms0_1 t) (hs0_1 t) (ms0_2 t) (hs0_2 t) (xband m c t) (qblock m c t))).trans ?_
  funext j
  obtain ⟨r, q, rfl⟩ : ∃ (r : Fin 4096) (q : Fin 512), j = ix2 r q := ⟨j 0, j 1, eq_ix2 j⟩
  have hN : cfg0.N = 64 := N_0
  have hr : 4096 * t.val + r.val < 262144 := by have := t.isLt; have := r.isLt; omega
  obtain ⟨-, -, -, -, e4, e5⟩ := index_facts t
  have hemb : ((cfg0.win 2).blk t).view.emb (ix2 r q) = ix2 (⟨4096 * t.val + r.val, hr⟩ : Fin 262144) q :=
    funext fun a => Fin.ext (by
      match a with
      | ⟨0, _⟩ => show win0_2.index t (0 : Fin 2) * 4096 + 1 * r.val = 4096 * t.val + r.val; omega
      | ⟨1, _⟩ => show win0_2.index t (1 : Fin 2) * 512 + 1 * q.val = q.val; omega)
  show matProd (xband m c t) (qblock m c t) (ix2 r q) = matProd (xarr m c) (qarr m c) (((cfg0.win 2).blk t).view.emb (ix2 r q))
  rw [hemb, qblock_eq]
  exact matProd_rows (xarr m c) (xband m c t) (qarr m c) r ⟨_, hr⟩ q (fun k => xband_apply m c t r k hr)

/-- An index of the result is in point `t`'s band iff each coordinate is in the band's range on its axis. -/
theorem mem_band (t : Fin cfg0.N) (i : S262144x512.Idx) :
    i ∈ ((cfg0.win 2).blk t).view.set ↔ ∀ a : Fin 2, win0_2.index t a * S4096x512.size a ≤ (i a).val ∧ (i a).val < win0_2.index t a * S4096x512.size a + S4096x512.size a := by
  show i ∈ ((View.whole main_v1).slice (win0_2.rect t)).set ↔ _
  rw [View.set_slice_whole, Rect.mem_set_unit]
  exact Iff.rfl

/-- Every index of the result lies in the band of the point numbered (its row) / 4096, which writes back. -/
theorem covered (i : S262144x512.Idx) : ∃ t : Fin cfg0.N, (cfg0.win 2).flush t = true ∧ i ∈ ((cfg0.win 2).blk t).view.set := by
  have hN : cfg0.N = 64 := N_0
  have h0 : (i 0).val < 262144 := (i 0).isLt
  have h1 : (i 1).val < 512 := (i 1).isLt
  have ht : (i 0).val / 4096 < cfg0.N := by omega
  obtain ⟨-, -, -, -, e4, e5⟩ := index_facts ⟨(i 0).val / 4096, ht⟩
  refine ⟨⟨(i 0).val / 4096, ht⟩, flush0_2 _, ?_⟩
  rw [mem_band]
  intro a
  match a with
  | ⟨0, _⟩ =>
    show win0_2.index ⟨(i 0).val / 4096, ht⟩ (0 : Fin 2) * 4096 ≤ (i 0).val ∧ (i 0).val < win0_2.index ⟨(i 0).val / 4096, ht⟩ (0 : Fin 2) * 4096 + 4096
    rw [e4]; dsimp only; omega
  | ⟨1, _⟩ =>
    show win0_2.index ⟨(i 0).val / 4096, ht⟩ (1 : Fin 2) * 512 ≤ (i 1).val ∧ (i 1).val < win0_2.index ⟨(i 0).val / 4096, ht⟩ (1 : Fin 2) * 512 + 512
    rw [e5]; omega

/-- THE RESULT ARRAY after the run: the product of X with the converted Q, as the region finds them. -/
theorem final_found (c : Dev nD) : (dats m 0 c).arrAt 2 cfg0.N = matProd (xarr m c) (qarr m c) :=
  (dats m 0 c).arrAt_eq_of_cover 2 (matProd (xarr m c) (qarr m c)) (fun t _ => flushed_eq m c t) covered

/-- The host's conversion of Q to bf16 before the call leaves Q as it is, over the extended reals. -/
theorem qarr_eq (c : Dev nD) : qarr m c = (m ((c : Thread nD τ).loc main_arg1) : S512x512.Idx → EReal) := by
  show (V m c main_v0 : S512x512.Idx → EReal) = _
  dsimp only [V, hostOps0]
  after_results
  rfl

/-- X reaches the region as launched. -/
theorem xarr_eq (c : Dev nD) : xarr m c = (m ((c : Thread nD τ).loc main_arg0) : S262144x512.Idx → EReal) :=
  V_main_arg0 m c

/-- THE RESULT ARRAY as a function of the arguments: X · Q. -/
theorem final (c : Dev nD) : (dats m 0 c).arrAt 2 cfg0.N
    = matProd (m ((c : Thread nD τ).loc main_arg0) : S262144x512.Idx → EReal) (m ((c : Thread nD τ).loc main_arg1) : S512x512.Idx → EReal) := by
  rw [final_found, qarr_eq, xarr_eq]

/-- The run, read: the result at X · Q, the arguments unchanged. -/
theorem run : θ_run defs (onTc (τ := τ) (main (F := Ideal))) ⟨m, fun _ => 0, ρ⟩ fun r => ∀ c : Dev nD,
      r.2.mem ((c : Thread nD τ).loc main_v1)
        = matProd (m ((c : Thread nD τ).loc main_arg0) : S262144x512.Idx → EReal) (m ((c : Thread nD τ).loc main_arg1) : S512x512.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.ReferenceProduct.lean ====
/-
  The reference's result, index by index. `jnp.matmul(X, Q)` lowers to ONE `dot_general` that contracts X's column
  axis with Q's row axis; over the extended reals its entry (r, c) is the sum over k of X(r, k) · Q(k, c), with no
  rounding and no order left in it. That sum is `matProd X Q` at (r, c): the two index functions the operation's
  read-at-an-index lemma names are (r, k) and (k, c).
-/
import proofs.«410156_j43671227466270_3_alg».proof.Proof.Gen.ReferenceIdeal.Read
import proofs.«410156_j43671227466270_3_alg».proof.Proof.MatProduct

noncomputable section

open Idealize.ShloMosaic Idealize.ShloMosaic.ValueIdx
open scoped BigOperators

namespace Cert.ReferenceIdeal.RefValue

open Cert.ReferenceIdeal Cert.ReferenceIdeal.Gen Cert.ReferenceIdeal.Read Cert.MatProduct

/-- The left operand is read at (r, k): the output's row, the contraction index. -/
theorem left_index (r : Fin 262144) (c k : Fin 512) : lidx_main_v0 (ix2 r c) k = ix2 r k :=
  funext fun a => Fin.ext (by match a with | ⟨0, _⟩ => rfl | ⟨1, _⟩ => rfl)

/-- The right operand is read at (k, c): the contraction index, the output's column. -/
theorem right_index (r : Fin 262144) (c k : Fin 512) : ridx_main_v0 (ix2 r c) k = ix2 k c :=
  funext fun a => Fin.ext (by match a with | ⟨0, _⟩ => rfl | ⟨1, _⟩ => rfl)

/-- The reference's one operation computes the product X · Q. -/
theorem reference_eq (X : Vec Ideal S262144x512 .f32) (Q : Vec Ideal S512x512 .f32) :
    val_main_v0 (F := Ideal) X Q = matProd X Q := by
  funext i
  obtain ⟨r, c, rfl⟩ : ∃ (r : Fin 262144) (c : Fin 512), i = ix2 r c := ⟨i 0, i 1, eq_ix2 i⟩
  rw [val_main_v0_apply, matProd_apply]
  exact Finset.sum_congr rfl fun k _ => by rw [left_index, right_index]

end Cert.ReferenceIdeal.RefValue

end
-- ==== Proof.lean ====
/-
  The kernel computes X · Q for X of 262144 rows and 512 columns and a 512 × 512 matrix Q (in use a permutation matrix,
  but nothing here needs that), and the reference is `jnp.matmul(X, Q)`. Over the extended reals both are the array whose
  entry (r, c) is the sum over k of X(r, k) · Q(k, c):

  * the reference is one `dot_general`, which is that sum (ReferenceProduct);
  * the kernel converts Q to bf16 on the host and each band of X to bf16 in the body, which over the extended reals
    changes nothing; each of 64 grid points multiplies its band of 4096 rows by Q in two halves of 2048 rows, each on
    the matrix unit into a zero accumulator, which is the same sum with a 0 added (BodyArithmetic); the two halves tile the
    band, and since a row of a product depends only on the same row of the left factor the band is the matching band of
    X · Q (BandProduct); the 64 bands tile the result (ArrayProduct).

  No law of the extended reals is used beyond 0 + s = s and equality of the summands: the sum over k is the same sum,
  in the same order, on both sides. So the precondition (finite inputs) is never opened.

  The three frames: the two kernel programs' are the generated frame certificates, the reference's is its run with the
  result dropped. The idealization rewrote no operation, so `preserves` is `True`.
-/
import proofs.«410156_j43671227466270_3_alg».proof.Defs
import proofs.«410156_j43671227466270_3_alg».proof.Proof.Gen.Kernel
import proofs.«410156_j43671227466270_3_alg».proof.Proof.Gen.Kernel.Skeleton
import proofs.«410156_j43671227466270_3_alg».proof.Proof.Gen.Kernel.Launch
import proofs.«410156_j43671227466270_3_alg».proof.Proof.Gen.Kernel.Points
import proofs.«410156_j43671227466270_3_alg».proof.Proof.Gen.Kernel.Frame
import proofs.«410156_j43671227466270_3_alg».proof.Proof.Gen.KernelIdeal
import proofs.«410156_j43671227466270_3_alg».proof.Proof.Gen.KernelIdeal.Skeleton
import proofs.«410156_j43671227466270_3_alg».proof.Proof.Gen.KernelIdeal.Launch
import proofs.«410156_j43671227466270_3_alg».proof.Proof.Gen.KernelIdeal.Points
import proofs.«410156_j43671227466270_3_alg».proof.Proof.Gen.KernelIdeal.Frame
import proofs.«410156_j43671227466270_3_alg».proof.Proof.Gen.ReferenceIdeal
import proofs.«410156_j43671227466270_3_alg».proof.Proof.Gen.Pre_finite_inputs
import proofs.«410156_j43671227466270_3_alg».proof.Proof.Gen.KernelIdeal.Value
import proofs.«410156_j43671227466270_3_alg».proof.Proof.Gen.ReferenceIdeal.Run
import proofs.«410156_j43671227466270_3_alg».proof.Proof.Gen.ReferenceIdeal.Read
import proofs.«410156_j43671227466270_3_alg».proof.Proof.ArrayProduct
import proofs.«410156_j43671227466270_3_alg».proof.Proof.ReferenceProduct
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result at X · Q of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.ReferenceIdeal.RefValue.reference_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
